-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S401408x128 : Shape := ⟨2, ![401408, 128]⟩
abbrev S8192x128 : Shape := ⟨2, ![8192, 128]⟩

abbrev nBuf : Space → Nat
  | .hbm => 4
  | .vmem => 4
  | .smem => 0
  | _ => 0

abbrev bufTy : (tb : Table) → Fin (tcTables nBuf tb) → BufTy
  | .hbm, ⟨0, _⟩ => ⟨S64x256x56x56, .f32⟩
  | .hbm, ⟨1, _⟩ => ⟨S401408x128, .f32⟩
  | .hbm, ⟨2, _⟩ => ⟨S401408x128, .f32⟩
  | .hbm, ⟨3, _⟩ => ⟨S64x256x56x56, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x256x56x56_S401408x128 : S64x256x56x56.ShapeCasts S401408x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S401408x128_S64x256x56x56 : S401408x128.ShapeCasts S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S401408x128.size a
  hwx0_0 : ∀ i : grid0.Coords, EltTy.bits .f32 = 32 ∨ (Rect.block (s := S401408x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S401408x128.size a
  hwx0_1 : ∀ i : grid0.Coords, EltTy.bits .f32 = 32 ∨ (Rect.block (s := S401408x128) S8192x128.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S_, .f32⟩
  | .hbm, ⟨2, _⟩ => ⟨S64x256x56x56, .f32⟩
  | .hbm, ⟨3, _⟩ => ⟨S64x256x56x56, .f32⟩
  | .hbm, ⟨4, _⟩ => ⟨S_, .f32⟩
  | .hbm, ⟨5, _⟩ => ⟨S64x256x56x56, .f32⟩
  | .hbm, ⟨6, _⟩ => ⟨S64x256x56x56, .f32⟩
  | .hbm, ⟨7, _⟩ => ⟨S64x256x56x56, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64x256x56x56, .f32⟩
  | .hbm, ⟨14, _⟩ => ⟨S64x256x56x56, .f32⟩
  | .hbm, ⟨15, _⟩ => ⟨S64x256x56x56, .f32⟩
  | .hbm, ⟨16, _⟩ => ⟨S64x256x56x56, .f32⟩
  | .hbm, ⟨17, _⟩ => ⟨S_, .f32⟩
  | .hbm, ⟨18, _⟩ => ⟨S64x256x56x56, .f32⟩
  | .hbm, ⟨19, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_cst_3 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S64x256x56x56 : S_.BroadcastsInDim S64x256x56x56 (![] : Fin 0 → Fin S64x256x56x56.rank)

variable [Facts₀]

class Facts : Prop extends Facts₀ where

variable [Facts]
-- ==== Proof.FixedPoint.lean ====
/-
  Fixed-point quantization of one number, both ways it is spelt.

  With four fractional bits out of eight, a number `x` is sent to the nearest lower multiple of `2⁻⁴` of
  `x + 2⁻⁵`, clamped to the signed eight-bit range:  `q x = clamp (⌊s + 1/2⌋, -128, 127) · 2⁻⁴`  where `s` is `x`
  measured in steps of `2⁻⁴`. The two programs differ only in how they spell `s` and the two clamp bounds:

  * one multiplies, `s = x · 16`, and writes the bounds as the literals `-128` and `127`;
  * the other divides, `s = x / 2⁻⁴`, and computes the bounds as `-(128)` and `128 - 1`.

  On the extended reals a quotient by a nonzero real IS the product with its reciprocal (at the infinities too),
  `1 / 2⁻⁴ = 16`, and the bounds are the same two reals; so the two spellings are one function of `x`, for every
  extended real `x` — no finiteness is needed. The literal `1/2` and the final factor `2⁻⁴` are the same word on
  both sides and are never evaluated.
-/
import Idealize.ShloMosaic.PureOps.Ideal

noncomputable section

namespace Cert.FixedPoint

open Idealize.ShloMosaic

variable {F : FTy → Type} [FloatOps F]

/-- The multiplying spelling: `min 127 (max (-128) ⌊x · 16 + 1/2⌋) · 2⁻⁴`, every constant a literal. -/
def byScaling (x : F .f32) : F .f32 :=
  FloatOps.mulf
    (FloatOps.minimumf (FloatOps.ofBits .f32 0x42FE0000#32)
      (FloatOps.maximumf (FloatOps.ofBits .f32 0xC3000000#32)
        (FloatOps.floor
          (FloatOps.addf (FloatOps.mulf x (FloatOps.ofBits .f32 0x41800000#32)) (FloatOps.ofBits .f32 0x3F000000#32)))))
    (FloatOps.ofBits .f32 0x3D800000#32)

/-- The dividing spelling: `min (128 - 1) (max (-(128)) ⌊x / 2⁻⁴ + 1/2⌋) · 2⁻⁴`, the quotient, the floor and the
    negation the host's. -/
def byDividing (x : F .f32) : F .f32 :=
  FloatOps.mulf
    (FloatOps.minimumf (FloatOps.subf (FloatOps.ofBits .f32 0x43000000#32) (FloatOps.ofBits .f32 0x3F800000#32))
      (FloatOps.maximumf (FloatOps.hostNegf (FloatOps.ofBits .f32 0x43000000#32))
        (FloatOps.hostUnary .floor
          (FloatOps.addf (FloatOps.hostDivf x (FloatOps.ofBits .f32 0x3D800000#32)) (FloatOps.ofBits .f32 0x3F000000#32)))))
    (FloatOps.ofBits .f32 0x3D800000#32)

/-! ## The literals that are compared, as the reals they denote -/

theorem lit_sixteen : Ideal.ofBits .f32 0x41800000#32 = ((16 : ℝ) : EReal) := by
  simp [Ideal.ofBits, Ideal.ieee, -EReal.coe_mul]; norm_num

theorem lit_sixteenth : Ideal.ofBits .f32 0x3D800000#32 = ((1 / 16 : ℝ) : EReal) := by
  simp [Ideal.ofBits, Ideal.ieee, -EReal.coe_mul]; norm_num

theorem lit_neg128 : Ideal.ofBits .f32 0xC3000000#32 = ((-128 : ℝ) : EReal) := by
  simp [Ideal.ofBits, Ideal.ieee, -EReal.coe_mul]; norm_num

theorem lit_127 : Ideal.ofBits .f32 0x42FE0000#32 = ((127 : ℝ) : EReal) := by
  simp [Ideal.ofBits, Ideal.ieee, -EReal.coe_mul]; norm_num

theorem lit_128 : Ideal.ofBits .f32 0x43000000#32 = ((128 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

/-- Measuring in steps of `2⁻⁴`: the quotient by `2⁻⁴` is the product with `16`, on every extended real. -/
theorem steps_eq (x : EReal) : Ideal.div x ((1 / 16 : ℝ) : EReal) = x * ((16 : ℝ) : EReal) := by
  rw [Ideal.div_coe (by norm_num : (1 / 16 : ℝ) ≠ 0) x]
  norm_num

/-- The lower bound: `-(128)` is the literal `-128`. -/
theorem lower_eq : -((128 : ℝ) : EReal) = ((-128 : ℝ) : EReal) := by
  rw [← EReal.coe_neg]

/-- The upper bound: `128 - 1` is the literal `127`. -/
theorem upper_eq : ((128 : ℝ) : EReal) - ((1 : ℝ) : EReal) = ((127 : ℝ) : EReal) := by
  rw [← EReal.coe_sub]; norm_num

/-- THE LAW: on the extended reals the two spellings are one function. -/
theorem byScaling_eq_byDividing (x : EReal) : byScaling (F := Ideal) x = byDividing (F := Ideal) x := by
  unfold byScaling byDividing
  simp only [Ideal.mulf_def, Ideal.minimumf_def, Ideal.maximumf_def, Ideal.floor_def, Ideal.addf_def, Ideal.subf_def,
    Ideal.hostNegf_def, Ideal.negf_def, Ideal.hostUnary_floor_def, Ideal.hostDivf_def, Ideal.ofBits_def]
  rw [lit_sixteen, lit_neg128, lit_127, lit_128, lit_one, lit_sixteenth, steps_eq, lower_eq, upper_eq]

end Cert.FixedPoint

end
-- ==== Proof.KernelValue.lean ====
/-
  What the kernel program computes, entry by entry.

  The program views `x : f32[64, 256, 56, 56]` as a matrix of 401408 rows of 128 lanes (same elements, row-major),
  runs the kernel over a grid of 49 points, and views the result back at the original shape. At grid point `t` the
  kernel reads rows `8192·t … 8192·t + 8191` of the matrix (all 128 lanes), applies the multiplying spelling of the
  fixed-point quantizer to every entry, and writes the same rows of the output matrix. The 49 blocks tile the matrix
  exactly (49 · 8192 = 401408), so the output matrix is the quantizer applied entry by entry to the input matrix; and
  since a row-major re-view there and back is the identity, the program's result is the quantizer applied entry by
  entry to `x`.
-/
import proofs.«120386_j26233660244146_1_alg».proof.Proof.Gen.KernelIdeal.Frame
import proofs.«120386_j26233660244146_1_alg».proof.Proof.FixedPoint
import Idealize.ShloMosaic.Lib.Pipeline.Value
import Idealize.ShloMosaic.Lib.StableHlo.Run

noncomputable section

namespace Cert.KernelIdeal.Quantized

open Cert.KernelIdeal Cert.KernelIdeal.Gen Idealize.ShloMosaic Idealize.ShloMosaic.TcCoe Idealize.SL.Sem
open Idealize.ShloMosaic.Pipeline (Dat)
open Cert.FixedPoint (byScaling)

variable {F : FTy → Type} [FloatOps F]
variable (m : (ℓ : Loc nD τ sig) → Buf (Elt F) ℓ) (ρ : Dev nD → PrngReg)

/-! ## One grid point -/

theorem origin : (![0, 0] : Fin 2 → Nat) = fun _ => 0 := funext fun a => by fin_cases a <;> rfl

/-- The quantizer over a whole matrix, entry by entry. -/
abbrev onMatrix (a : S401408x128.Idx → Elt F .f32) : S401408x128.Idx → Elt F .f32 := fun i => byScaling (a i)

/-- The value the body stores is the quantizer applied to each entry of the block it loaded: every operation of the
    body is pointwise, each splat contributes its scalar, and the same-shape cast is the identity. -/
theorem stored_eq (x0 : Vec F S8192x128 .f32) : k0_pay1 x0 = fun j => byScaling (x0 j) := by
  unfold k0_pay1
  rw [shapeCast_self]
  rfl

/-- Decided over the 49 grid points: the input and the output window sit on the same block, in block column `0`. -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every one of the 49 row blocks is some grid point's. -/
theorem every_block : ∀ q : Fin 49, ∃ t : Fin cfg0.N, win0_1.index t = ![q.val, 0] :=
  (by decide +kernel : ∀ q : Fin 49, ∃ t : Fin grid0.N, win0_1.index t = ![q.val, 0])

/-- What grid point `t` writes back is block `t` of the quantized input matrix. -/
theorem written_eq (c : Dev nD) (t : Fin cfg0.N) :
    (dats m 0 c).flushed 1 t = ((cfg0.win 1).blk t).view.read (Elt F) (onMatrix (V m c main_v0)) := by
  show (cfg0.win 1).cut (grid0.coords t) ((dats m 0 c).after 1 t) = _
  rw [after0_1]
  unfold out0_1
  rw [View.canon_unit_zero origin]
  simp only [View.ld_unit_zero (S := S8192x128) origin]
  rw [stored_eq]
  obtain ⟨e0, e1⟩ := same_block t
  funext j
  show byScaling (V m c main_v0 (((cfg0.win 0).blk t).view.emb j)) = byScaling (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 8192 + 1 * (j 0).val = win0_1.index t (0 : Fin 2) * 8192 + 1 * (j 0).val; omega
    | ⟨1, _⟩ => show win0_0.index t (1 : Fin 2) * 128 + 1 * (j 1).val = win0_1.index t (1 : Fin 2) * 128 + 1 * (j 1).val; omega
  rw [h0]

/-! ## The 49 blocks tile the matrix -/

/-- An entry of the matrix is in point `t`'s block iff each coordinate is in the block's range on its axis. -/
theorem mem_block (t : Fin cfg0.N) (i : S401408x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v1).slice (win0_1.rect t)).set ↔ _
  rw [View.set_slice_whole, Rect.mem_set_unit]
  exact Iff.rfl

/-- Row `r` lies in the block of index `r / 8192`, which some grid point writes. -/
theorem tiled (i : S401408x128.Idx) :
    ∃ t : Fin cfg0.N, (cfg0.win 1).flush t = true ∧ i ∈ ((cfg0.win 1).blk t).view.set := by
  have hi0 : (i 0).val < 401408 := (i 0).isLt
  have hi1 : (i 1).val < 128 := (i 1).isLt
  obtain ⟨t, ht⟩ := every_block ⟨(i 0).val / 8192, by omega⟩
  have q0 : win0_1.index t (0 : Fin 2) = (i 0).val / 8192 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 128 ≤ (i 1).val ∧ (i 1).val < win0_1.index t (1 : Fin 2) * 128 + 128; omega

/-- The output matrix after the grid: the quantized input matrix. -/
theorem matrix_eq (c : Dev nD) : (dats m 0 c).arrAt 1 cfg0.N = onMatrix (V m c main_v0) :=
  (dats m 0 c).arrAt_eq_of_cover 1 (onMatrix (V m c main_v0)) (fun t _ => written_eq m c t) tiled

/-! ## The two re-views around the grid -/

/-- The input matrix is `x` viewed row-major at 401408 × 128. -/
theorem viewed_eq (c : Dev nD) :
    (V m c main_v0 : S401408x128.Idx → Elt F .f32)
      = shapeCast S401408x128 (m ((c : Thread nD τ).loc main_arg0)) shapeCasts_S64x256x56x56_S401408x128 := by
  show StableHlo.after hostOps0 (fun b => m (c, b)) (Proc.devRef .tc main_v0) = _
  after_results
  rfl

/-- The program's result is the output matrix viewed back at `x`'s shape. -/
theorem viewed_back_eq (c : Dev nD) :
    (Pipeline.afterTail₀ cfgs (dats m) 0 (V0 m) [hostOps1] c main_v2 : S64x256x56x56.Idx → Elt F .f32)
      = shapeCast S64x256x56x56 ((dats m 0 c).arrAt 1 cfg0.N) shapeCasts_S401408x128_S64x256x56x56 := by
  unfold Pipeline.afterTail₀
  show StableHlo.after hostOps1 _ (Proc.devRef .tc main_v2) = _
  after_results
  have hw := Pipeline.withArrays_arr (τ := τ) spec0 launch0.win.arr_inj c (V0 m c) (fun w => (dats m 0 c).arrAt w cfg0.N) 1
  funext i
  exact congrArg (fun a : S401408x128.Idx → Elt F .f32 => shapeCast S64x256x56x56 a shapeCasts_S401408x128_S64x256x56x56 i) hw

/-! ## The program's result -/

/-- The program's result is the quantizer applied to each entry of `x`: the quantizer acts entry by entry, so it
    passes through both re-views, and a row-major re-view there and back is the identity. -/
theorem result_eq (c : Dev nD) :
    (Pipeline.afterTail₀ cfgs (dats m) 0 (V0 m) [hostOps1] c main_v2 : S64x256x56x56.Idx → Elt F .f32)
      = fun i => byScaling (m ((c : Thread nD τ).loc main_arg0) i) := by
  rw [viewed_back_eq, matrix_eq, viewed_eq]
  funext i
  exact congrArg byScaling (congrFun (shapeCast_shapeCast (m ((c : Thread nD τ).loc main_arg0) : S64x256x56x56.Idx → Elt F .f32)
    shapeCasts_S64x256x56x56_S401408x128 shapeCasts_S401408x128_S64x256x56x56) i)

/-- Every weakly fair execution of the program terminates, without a fault, with its result array holding the
    quantizer of each entry of `x`, and `x` unchanged. -/
theorem run : θ_run defs (onTc (τ := τ) (main (F := F))) ⟨m, fun _ => 0, ρ⟩ fun r => ∀ c : Dev nD,
      r.2.mem ((c : Thread nD τ).loc main_v2) = (fun i => byScaling (m ((c : Thread nD τ).loc main_arg0) i))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Quantized

end
-- ==== Proof.RefValue.lean ====
/-
  What the reference computes, entry by entry.

  The reference is a chain of whole-array pointwise operations on `x`: the quotient by the splat of `2⁻⁴`, the sum with
  the splat of `1/2`, the floor, the clamp between the splats of `-(128)` and `128 - 1`, the product with the splat of
  `2⁻⁴`. A splat of a scalar reads that scalar at every index, so at an index `i` the result is the dividing spelling of
  the fixed-point quantizer applied to `x i` and to nothing else.
-/
import proofs.«120386_j26233660244146_1_alg».proof.Proof.Gen.ReferenceIdeal.Read
import proofs.«120386_j26233660244146_1_alg».proof.Proof.FixedPoint

noncomputable section

namespace Cert.ReferenceIdeal.Quantized

open Cert.ReferenceIdeal Cert.ReferenceIdeal.Gen Cert.ReferenceIdeal.Read Idealize.ShloMosaic Idealize.ShloMosaic.TcCoe Idealize.SL.Sem
open Cert.FixedPoint (byDividing)

variable {F : FTy → Type} [FloatOps F]

/-- The reference's result at an index is the dividing spelling of the quantizer at that entry of `x`: every stage is
    pointwise, and each splat contributes its scalar. -/
theorem result_apply (x0 : (⟨S64x256x56x56, .f32⟩ : BufTy).Contents (Elt F)) (i : S64x256x56x56.Idx) :
    val_main_v9 (F := F) x0 i = byDividing (x0 i) := by
  rw [val_main_v9_apply, val_main_v7_apply, val_main_v8_apply, val_main_cst_4_apply, val_main_call0_v2_apply,
    val_main_v6_apply, val_main_cst_2_apply, val_main_cst_3_apply, val_main_call0_v1_apply, val_main_call0_v0_apply,
    val_main_v5_apply, val_main_cst_1_apply, val_main_v4_apply, val_main_v3_apply, val_main_v1_apply, val_main_v0_apply,
    val_main_cst_apply, val_main_v2_apply, val_main_cst_0_apply]
  rfl

/-- As a whole array. -/
theorem result_eq (x0 : (⟨S64x256x56x56, .f32⟩ : BufTy).Contents (Elt F)) :
    val_main_v9 (F := F) x0 = fun i => byDividing (x0 i) :=
  funext (result_apply x0)

end Cert.ReferenceIdeal.Quantized

end
-- ==== Proof.lean ====
/-
  An eight-bit fixed-point quantizer with four fractional bits, elementwise over `x : f32[64, 256, 56, 56]`:

      q x = clamp (⌊x / 2⁻⁴ + 1/2⌋, -128, 127) · 2⁻⁴ .

  The kernel program re-views `x` as 401408 rows of 128 lanes, quantizes it in 49 blocks of 8192 rows with the scale
  spelt as a product (`x · 16`) and the clamp bounds as literals, and re-views the result back; the reference divides
  by `2⁻⁴` over the whole array and computes its bounds as `-(128)` and `128 - 1`.

  * Proof/FixedPoint.lean: on the extended reals the two spellings are one function of `x` (a quotient by a nonzero
    real is the product with its reciprocal, at the infinities too; the bounds are the same reals). The law needs no
    finiteness, so the precondition is never opened.
  * Proof/KernelValue.lean: the kernel program's result holds the multiplying spelling of each entry of `x` (every
    block is the quantizer of the same rows of the input matrix; the 49 blocks tile it; a row-major re-view there and
    back is the identity).
  * Proof/RefValue.lean: the reference's result holds the dividing spelling of each entry of `x`.

  The three frames are the programs' runs with the result dropped; the idealization rewrote nothing, so `preserves`
  is trivial; and the two results agree entry by entry by the law.
-/
import proofs.«120386_j26233660244146_1_alg».proof.Defs
import proofs.«120386_j26233660244146_1_alg».proof.Proof.Gen.Kernel
import proofs.«120386_j26233660244146_1_alg».proof.Proof.Gen.Kernel.Skeleton
import proofs.«120386_j26233660244146_1_alg».proof.Proof.Gen.Kernel.Launch
import proofs.«120386_j26233660244146_1_alg».proof.Proof.Gen.Kernel.Points
import proofs.«120386_j26233660244146_1_alg».proof.Proof.Gen.Kernel.Frame
import proofs.«120386_j26233660244146_1_alg».proof.Proof.Gen.KernelIdeal
import proofs.«120386_j26233660244146_1_alg».proof.Proof.Gen.KernelIdeal.Skeleton
import proofs.«120386_j26233660244146_1_alg».proof.Proof.Gen.KernelIdeal.Launch
import proofs.«120386_j26233660244146_1_alg».proof.Proof.Gen.KernelIdeal.Points
import proofs.«120386_j26233660244146_1_alg».proof.Proof.Gen.KernelIdeal.Frame
import proofs.«120386_j26233660244146_1_alg».proof.Proof.Gen.ReferenceIdeal
import proofs.«120386_j26233660244146_1_alg».proof.Proof.Gen.ReferenceIdeal.Run
import proofs.«120386_j26233660244146_1_alg».proof.Proof.Gen.ReferenceIdeal.Read
import proofs.«120386_j26233660244146_1_alg».proof.Proof.Gen.Pre_finite_inputs
import proofs.«120386_j26233660244146_1_alg».proof.Proof.FixedPoint
import proofs.«120386_j26233660244146_1_alg».proof.Proof.KernelValue
import proofs.«120386_j26233660244146_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves `x` unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves `x` unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on `x`, both programs end with the quantizer of each entry of `x`: the kernel program's
    result in the multiplying spelling, the reference's in the dividing one, equal on the extended reals. -/
theorem algebraic : Cert.algebraic_KernelIdeal_ReferenceIdeal := by
  intro m ρ m' ρ' _ hagree
  refine ⟨_, Cert.KernelIdeal.Quantized.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Quantized.result_eq, hagree c]
  funext i
  exact (Cert.FixedPoint.byScaling_eq_byDividing _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
